-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x256 : Shape := ⟨3, ![16, 2048, 256]⟩
abbrev S1x512x256 : Shape := ⟨3, ![1, 512, 256]⟩
abbrev S_ : Shape := ⟨0, ![]⟩

class Facts : Prop where
  bcast_S_S16x2048x256 : S_.BroadcastsInDim S16x2048x256 (![] : Fin 0 → Fin S16x2048x256.rank)
  reducesTo_S16x2048x256_S_d0_1_2 : S16x2048x256.ReducesTo [0, 1, 2] S_
  h_S_ : 0 < S_.numel
  bcast_S_S1x512x256 : S_.BroadcastsInDim S1x512x256 (![] : Fin 0 → Fin S1x512x256.rank)
  reducesTo_S1x512x256_S_d0_1_2 : S1x512x256.ReducesTo [0, 1, 2] S_

variable [Facts]

def fn {F : FTy → Type} [FloatOps F] (main_arg0 : FVec F S16x2048x256 .f32) (main_arg1 : FVec F S1x512x256 .f32) : IVec S_ 1 :=
  let main_v0 : FVec F S16x2048x256 .f32 := Host.absf main_arg0
  let main_cst : FVec F S_ .f32 := constant S_ .f32 0x7F800000#32
  let main_v1 : FVec F S16x2048x256 .f32 := broadcastInDim S16x2048x256 ![] bcast_S_S16x2048x256 main_cst
  let main_v2 : IVec S16x2048x256 1 := cmpf .olt main_v0 main_v1
  let main_c : IVec S_ 1 := constantI S_ 1 1#1
  let main_v3 : IVec S_ 1 := (fun x v => Host.reduce IntOp.andi x v reducesTo_S16x2048x256_S_d0_1_2 h_S_) main_v2 main_c
  let main_v4 : FVec F S1x512x256 .f32 := Host.absf main_arg1
  let main_cst_0 : FVec F S_ .f32 := constant S_ .f32 0x7F800000#32
  let main_v5 : FVec F S1x512x256 .f32 := broadcastInDim S1x512x256 ![] bcast_S_S1x512x256 main_cst_0
  let main_v6 : IVec S1x512x256 1 := cmpf .olt main_v4 main_v5
  let main_c_1 : IVec S_ 1 := constantI S_ 1 1#1
  let main_v7 : IVec S_ 1 := (fun x v => Host.reduce IntOp.andi x v reducesTo_S1x512x256_S_d0_1_2 h_S_) main_v6 main_c_1
  let main_v8 : IVec S_ 1 := andi main_v3 main_v7
  main_v8
-- ==== Kernel.lean ====
abbrev S16x2048x256 : Shape := ⟨3, ![16, 2048, 256]⟩
abbrev S1x512x256 : Shape := ⟨3, ![1, 512, 256]⟩
abbrev S512x256 : Shape := ⟨2, ![512, 256]⟩
abbrev S_ : Shape := ⟨0, ![]⟩
abbrev S512 : Shape := ⟨1, ![512]⟩
abbrev S512x1 : Shape := ⟨2, ![512, 1]⟩
abbrev S1x512 : Shape := ⟨2, ![1, 512]⟩
abbrev S32768x256 : Shape := ⟨2, ![32768, 256]⟩
abbrev S32768x512 : Shape := ⟨2, ![32768, 512]⟩
abbrev S2048x256 : Shape := ⟨2, ![2048, 256]⟩
abbrev S2048x512 : Shape := ⟨2, ![2048, 512]⟩
abbrev S2048 : Shape := ⟨1, ![2048]⟩
abbrev S2048x1 : Shape := ⟨2, ![2048, 1]⟩
abbrev S16x2048x512 : Shape := ⟨3, ![16, 2048, 512]⟩

abbrev nBuf : Space → Nat
  | .hbm => 11
  | .vmem => 6
  | .smem => 0
  | _ => 0

abbrev bufTy : (tb : Table) → Fin (tcTables nBuf tb) → BufTy
  | .hbm, ⟨0, _⟩ => ⟨S16x2048x256, .f32⟩
  | .hbm, ⟨1, _⟩ => ⟨S1x512x256, .f32⟩
  | .hbm, ⟨2, _⟩ => ⟨S512x256, .f32⟩
  | .hbm, ⟨3, _⟩ => ⟨S512x256, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S1x512, .f32⟩
  | .hbm, ⟨8, _⟩ => ⟨S32768x256, .f32⟩
  | .hbm, ⟨9, _⟩ => ⟨S32768x512, .f32⟩
  | .hbm, ⟨10, _⟩ => ⟨S16x2048x512, .f32⟩
  | .local _ .vmem, ⟨0, _⟩ => ⟨S2048x256, .f32⟩
  | .local _ .vmem, ⟨1, _⟩ => ⟨S2048x256, .f32⟩
  | .local _ .vmem, ⟨2, _⟩ => ⟨S512x256, .f32⟩
  | .local _ .vmem, ⟨3, _⟩ => ⟨S1x512, .f32⟩
  | .local _ .vmem, ⟨4, _⟩ => ⟨S2048x512, .f32⟩
  | .local _ .vmem, ⟨5, _⟩ => ⟨S2048x512, .f32⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1x512x256_S512x256 : S1x512x256.ShapeCasts S512x256
  reducesTo_S512x256_S512_d1 : S512x256.ReducesTo [1] S512
  h_S_ : 0 < S_.numel
  bcast_S512_S512x1_0 : S512.BroadcastsInDim S512x1 (![0] : Fin 1 → Fin S512x1.rank)
  shapeCasts_S512x1_S1x512 : S512x1.ShapeCasts S1x512
  shapeCasts_S16x2048x256_S32768x256 : S16x2048x256.ShapeCasts S32768x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x512_S1x512_0_0 : ∀ a, (![0, 0] : Fin 2 → Nat) a + S1x512.size a ≤ S1x512.size a
  h_S1x512 : 0 < S1x512.numel
  shapeCasts_S1x512_S1x512 : S1x512.ShapeCasts S1x512
  bitsLt_bf16_f32 : FTy.bits .bf16 < FTy.bits .f32
  reduces_S2048x256_S2048 : S2048x256.Reduces [1] S2048
  shapeCasts_S2048_S2048x1 : S2048.ShapeCasts S2048x1
  broadcasts_S2048x1_S2048x512 : S2048x1.Broadcasts S2048x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  shapeCasts_S32768x512_S16x2048x512 : S32768x512.ShapeCasts S16x2048x512
  dot_S2048x256_S512x256_S2048x512_1_1_0_0_n_n_wf : DotDims.WF S2048x256 S512x256 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S32768x256.size a
  hwx0_0 : ∀ i : grid0.Coords, EltTy.bits .f32 = 32 ∨ (Rect.block (s := S32768x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S32768x512.size a
  hwx0_3 : ∀ i : grid0.Coords, EltTy.bits .f32 = 32 ∨ (Rect.block (s := S32768x512) S2048x512.size (cc0_transform_3 i) (hinb0_3 i)).WholeWords (EltTy.packing .f32)

variable [Facts₀]

def dot_S2048x256_S512x256_S2048x512_1_1_0_0_n_n : DotDims S2048x256 S512x256 S2048x512 where
  lhsContracting := [1]
  rhsContracting := [1]
  lhsNonContracting := [0]
  rhsNonContracting := [0]
  lhsBatch := []
  rhsBatch := []
  wf := dot_S2048x256_S512x256_S2048x512_1_1_0_0_n_n_wf

abbrev win0_0 : Pipeline.Window sig grid0 :=
  Pipeline.Window.ofSpec (Memref.whole main_v5) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x2048x256 : Shape := ⟨3, ![16, 2048, 256]⟩
abbrev S1x512x256 : Shape := ⟨3, ![1, 512, 256]⟩
abbrev S512x256 : Shape := ⟨2, ![512, 256]⟩
abbrev S_ : Shape := ⟨0, ![]⟩
abbrev S16x2048 : Shape := ⟨2, ![16, 2048]⟩
abbrev S16x2048x1 : Shape := ⟨3, ![16, 2048, 1]⟩
abbrev S512 : Shape := ⟨1, ![512]⟩
abbrev S16x2048x512 : Shape := ⟨3, ![16, 2048, 512]⟩
abbrev S1x1x512 : Shape := ⟨3, ![1, 1, 512]⟩

abbrev nBuf : Space → Nat
  | .hbm => 19
  | .vmem => 0
  | .smem => 0
  | _ => 0

abbrev bufTy : (tb : Table) → Fin (tcTables nBuf tb) → BufTy
  | .hbm, ⟨0, _⟩ => ⟨S16x2048x256, .f32⟩
  | .hbm, ⟨1, _⟩ => ⟨S1x512x256, .f32⟩
  | .hbm, ⟨2, _⟩ => ⟨S512x256, .f32⟩
  | .hbm, ⟨3, _⟩ => ⟨S16x2048x256, .f32⟩
  | .hbm, ⟨4, _⟩ => ⟨S_, .f32⟩
  | .hbm, ⟨5, _⟩ => ⟨S16x2048, .f32⟩
  | .hbm, ⟨6, _⟩ => ⟨S16x2048x1, .f32⟩
  | .hbm, ⟨7, _⟩ => ⟨S512x256, .f32⟩
  | .hbm, ⟨8, _⟩ => ⟨S_, .f32⟩
  | .hbm, ⟨9, _⟩ => ⟨S512, .f32⟩
  | .hbm, ⟨10, _⟩ => ⟨S16x2048x512, .f32⟩
  | .hbm, ⟨11, _⟩ => ⟨S1x1x512, .f32⟩
  | .hbm, ⟨12, _⟩ => ⟨S16x2048x512, .f32⟩
  | .hbm, ⟨13, _⟩ => ⟨S16x2048x512, .f32⟩
  | .hbm, ⟨14, _⟩ => ⟨S16x2048x512, .f32⟩
  | .hbm, ⟨15, _⟩ => ⟨S_, .f32⟩
  | .hbm, ⟨16, _⟩ => ⟨S16x2048x512, .f32⟩
  | .hbm, ⟨17, _⟩ => ⟨S16x2048x512, .f32⟩
  | .hbm, ⟨18, _⟩ => ⟨S16x2048x512, .f32⟩
  | _, _ => ⟨S16x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  shapeCasts_S1x512x256_S512x256 : S1x512x256.ShapeCasts S512x256
  reducesTo_S16x2048x256_S16x2048_d2 : S16x2048x256.ReducesTo [2] S16x2048
  h_S_ : 0 < S_.numel
  bcast_S16x2048_S16x2048x1_0_1 : S16x2048.BroadcastsInDim S16x2048x1 (![0, 1] : Fin 2 → Fin S16x2048x1.rank)
  reducesTo_S512x256_S512_d1 : S512x256.ReducesTo [1] S512
  bcast_S512_S1x1x512_2 : S512.BroadcastsInDim S1x1x512 (![2] : Fin 1 → Fin S1x1x512.rank)
  bcast_S16x2048x1_S16x2048x512_0_1_2 : S16x2048x1.BroadcastsInDim S16x2048x512 (![0, 1, 2] : Fin 3 → Fin S16x2048x512.rank)
  bcast_S1x1x512_S16x2048x512_0_1_2 : S1x1x512.BroadcastsInDim S16x2048x512 (![0, 1, 2] : Fin 3 → Fin S16x2048x512.rank)
  bcast_S_S16x2048x512 : S_.BroadcastsInDim S16x2048x512 (![] : Fin 0 → Fin S16x2048x512.rank)
  dot_S16x2048x256_S512x256_S16x2048x512_2_1_01_0_n_n_wf : DotDims.WF S16x2048x256 S512x256 S16x2048x512 [2] [1] [0, 1] [0] [] []

variable [Facts₀]

def dot_S16x2048x256_S512x256_S16x2048x512_2_1_01_0_n_n : DotDims S16x2048x256 S512x256 S16x2048x512 where
  lhsContracting := [2]
  rhsContracting := [1]
  lhsNonContracting := [0, 1]
  rhsNonContracting := [0]
  lhsBatch := []
  rhsBatch := []
  wf := dot_S16x2048x256_S512x256_S16x2048x512_2_1_01_0_n_n_wf

class Facts : Prop extends Facts₀ where

variable [Facts]
-- ==== Proof.BlockValue.lean ====
/-
  One grid step of the kernel, read entry by entry over the extended reals.

  A step holds a tile `f` of 2048 feature rows (each of 256 coordinates), all 512 centres `C`
  (each of 256 coordinates) and the row `csq` of the centres' squared norms.  It stores, at row
  `p` and centre `q`,

      (Σ_d f[p,d]·f[p,d]  +  csq[0,q])  −  2 · Σ_d f[p,d]·C[q,d].

  Over the extended reals the narrowing of both matmul operands to bf16 is the identity, the
  matrix unit's product into a zero accumulator is the plain sum over the contracted coordinate,
  and the lane reduction from the zero word is the plain sum of the row.
-/
import proofs.«112747_j84095459656141_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Dist

open Cert.KernelIdeal Cert.KernelIdeal.Gen Idealize.ShloMosaic Idealize.ShloMosaic.ValueIdx
open scoped BigOperators

/-! ## The contraction's operand indices, axis by axis -/

/-- The left operand is read at the output's row. -/
theorem lhs_axis0 (i : S2048x512.Idx) (k : dot_S2048x256_S512x256_S2048x512_1_1_0_0_n_n.contr.Idx) :
    (dot_S2048x256_S512x256_S2048x512_1_1_0_0_n_n.lhsIdx i k 0).val = (i 0).val := by
  unfold DotDims.lhsIdx
  rw [dif_neg (show ¬(0 : Fin S2048x256.rank) ∈ dot_S2048x256_S512x256_S2048x512_1_1_0_0_n_n.lhsBatch by decide), dif_pos (show (0 : Fin S2048x256.rank) ∈ dot_S2048x256_S512x256_S2048x512_1_1_0_0_n_n.lhsNonContracting by decide)]
  rfl
/-- … and at the contracted coordinate. -/
theorem lhs_axis1 (i : S2048x512.Idx) (k : dot_S2048x256_S512x256_S2048x512_1_1_0_0_n_n.contr.Idx) :
    (dot_S2048x256_S512x256_S2048x512_1_1_0_0_n_n.lhsIdx i k 1).val = (k ⟨0, by decide⟩).val :=
  dot_S2048x256_S512x256_S2048x512_1_1_0_0_n_n.lhsIdx_val_of_single rfl i k
/-- The right operand is read at the output's column, which names a centre, -/
theorem rhs_axis0 (i : S2048x512.Idx) (k : dot_S2048x256_S512x256_S2048x512_1_1_0_0_n_n.contr.Idx) :
    (dot_S2048x256_S512x256_S2048x512_1_1_0_0_n_n.rhsIdx i k 0).val = (i 1).val := by
  unfold DotDims.rhsIdx
  rw [dif_neg (show ¬(0 : Fin S512x256.rank) ∈ dot_S2048x256_S512x256_S2048x512_1_1_0_0_n_n.rhsBatch by decide), dif_pos (show (0 : Fin S512x256.rank) ∈ dot_S2048x256_S512x256_S2048x512_1_1_0_0_n_n.rhsNonContracting by decide)]
  rfl
/-- … and at the contracted coordinate. -/
theorem rhs_axis1 (i : S2048x512.Idx) (k : dot_S2048x256_S512x256_S2048x512_1_1_0_0_n_n.contr.Idx) :
    (dot_S2048x256_S512x256_S2048x512_1_1_0_0_n_n.rhsIdx i k 1).val = (k ⟨0, by decide⟩).val :=
  dot_S2048x256_S512x256_S2048x512_1_1_0_0_n_n.rhsIdx_val_of_single rfl i k

/-- The product of a row tile with the transposed centres, into zero: entry `(p, q)` is the inner
    product of row `p` with centre `q`. -/
theorem cross_apply (a : FVec Ideal S2048x256 .bf16) (b : FVec Ideal S512x256 .bf16) (p : Fin 2048) (q : Fin 512) :
    matmul dot_S2048x256_S512x256_S2048x512_1_1_0_0_n_n none a b (constant S2048x512 .f32 0x00000000#32) (ix2 p q)
      = ∑ d : Fin 256, a (ix2 p d) * b (ix2 q d) := by
  refine (Ideal.matmul_constant_zero_apply dot_S2048x256_S512x256_S2048x512_1_1_0_0_n_n none a b (ix2 p q)).trans ?_
  rw [← Equiv.sum_comp (ValueIdx.contrEquiv1 dot_S2048x256_S512x256_S2048x512_1_1_0_0_n_n 256 rfl rfl).symm]
  refine Finset.sum_congr rfl fun d _ => ?_
  have hd := ValueIdx.contrEquiv1_symm_val dot_S2048x256_S512x256_S2048x512_1_1_0_0_n_n 256 rfl rfl d
  have el : dot_S2048x256_S512x256_S2048x512_1_1_0_0_n_n.lhsIdx (ix2 p q) ((ValueIdx.contrEquiv1 dot_S2048x256_S512x256_S2048x512_1_1_0_0_n_n 256 rfl rfl).symm d) = ix2 p d := funext fun ax => Fin.ext (by
    match ax with
    | ⟨0, _⟩ => exact lhs_axis0 _ _
    | ⟨1, _⟩ => exact (lhs_axis1 _ _).trans hd)
  have er : dot_S2048x256_S512x256_S2048x512_1_1_0_0_n_n.rhsIdx (ix2 p q) ((ValueIdx.contrEquiv1 dot_S2048x256_S512x256_S2048x512_1_1_0_0_n_n 256 rfl rfl).symm d) = ix2 q d := funext fun ax => Fin.ext (by
    match ax with
    | ⟨0, _⟩ => exact rhs_axis0 _ _
    | ⟨1, _⟩ => exact (rhs_axis1 _ _).trans hd)
  rw [el, er]

/-! ## The row sum and its two re-layings -/

/-- The lane reduction of a tile along its second axis, from the zero word: the plain sum of row `p`. -/
theorem rowsum_apply (v : FVec Ideal S2048x256 .f32) (h : S2048x256.Reduces [1] S2048) (hφ : FKind.Formats .f32)
    (hacc : (0x00000000#32 : BitVec 32) = FKind.add.neutral .f32 hφ) (p : Fin 2048) :
    multiReduction (F := Ideal) .add [1] S2048 v 0x00000000#32 h hφ hacc (ix1 p) = ∑ d : Fin 256, v (ix2 p d) := by
  refine (Ideal.multiReduction_add_single v 0x00000000#32 h hφ hacc (ix1 p)).trans ?_
  refine Finset.sum_congr rfl fun d _ => congrArg v ?_
  funext ax
  apply Fin.ext
  match ax with
  | ⟨0, _⟩ => rfl
  | ⟨1, _⟩ => rfl

/-- A vector of 2048 entries re-laid as a column: entry `(p, 0)` is entry `p`. -/
theorem column_apply {α : Type} (r : S2048.Idx → α) (h : S2048.ShapeCasts S2048x1) (p : Fin 2048) (z : Fin 1) :
    shapeCast S2048x1 r h (ix2 p z) = r (ix1 p) :=
  shapeCast_apply r h (ix2 p z) (ix1 p) (by
    rewrite [Shape.rowMajor_val_one, Shape.rowMajor_val_two]
    have hz : z.val = 0 := by have := z.isLt; omega
    show p.val = p.val * 1 + z.val
    omega)

/-- A column spread over 512 columns: entry `(p, q)` is the column's entry `(p, 0)`. -/
theorem spread_column_apply {α : Type} (v : S2048x1.Idx → α) (h : S2048x1.Broadcasts S2048x512) (p : Fin 2048) (q : Fin 512) :
    broadcastTo S2048x512 v h (ix2 p q) = v (ix2 p (0 : Fin 1)) :=
  broadcastTo_apply v h (ix2 p q) (ix2 p (0 : Fin 1)) fun ax => by
    match ax with
    | ⟨0, _⟩ => show p.val = if (2048 : Nat) = 1 then 0 else p.val; rw [if_neg (by decide)]
    | ⟨1, _⟩ => show 0 = if (1 : Nat) = 1 then 0 else q.val; rw [if_pos rfl]

/-! ## The stored value -/

/-- What a step stores at row `p`, centre `q`, from the three blocks it loads. -/
theorem stored_apply (f : Vec Ideal S2048x256 .f32) (C : Vec Ideal S512x256 .f32) (csq : Vec Ideal S1x512 .f32)
    (p : Fin 2048) (q : Fin 512) :
    k0_pay1 (F := Ideal) f C csq (ix2 p q)
      = ((∑ d : Fin 256, f (ix2 p d) * f (ix2 p d)) + csq (ix2 (0 : Fin 1) q))
          - Ideal.ofBits .f32 0x40000000#32 * ∑ d : Fin 256, f (ix2 p d) * C (ix2 q d) := by
  unfold k0_pay1
  rw [shapeCast_self f, shapeCast_self C, shapeCast_self csq]
  rw [subf_apply, addf_apply, mulf_apply, broadcast_apply, spread_column_apply, column_apply,
    broadcastTo_1b_ab_apply]
  refine congrArg₂ (· - ·) (congrArg (· + csq (ix2 (0 : Fin 1) q)) ?_) (congrArg (_ * ·) ?_)
  · exact rowsum_apply (mulf f f) _ _ _ p
  · exact cross_apply _ _ p q

end Cert.KernelIdeal.Dist

end
-- ==== Proof.Spec.lean ====
/-
  The squared distance from every feature vector to every centre, written in its expanded form
  over the extended reals:

      D[b, s, k] = (Σ_d x[b,s,d]·x[b,s,d]  +  Σ_d c[0,k,d]·c[0,k,d])  −  2 · Σ_d x[b,s,d]·c[0,k,d],

  for `x` of shape [16, 2048, 256] and `c` of shape [1, 512, 256].  The factor `2` is kept as the
  float word both programs print for it; nothing here evaluates it.  Both programs are shown to
  compute exactly this function, with the sums grouped in exactly this way, so no law beyond
  `0 + a = a` is used and no entry needs to be finite.
-/
import Idealize.ShloMosaic.PureOps.Ideal
import Idealize.ShloMosaic.Lib.ValueIdx

noncomputable section

namespace Cert.Dist

open Idealize.ShloMosaic Idealize.ShloMosaic.ValueIdx
open scoped BigOperators

/-- The features' shape. -/
abbrev Feat : Shape := ⟨3, ![16, 2048, 256]⟩
/-- The centres' shape. -/
abbrev Cent : Shape := ⟨3, ![1, 512, 256]⟩
/-- The result's shape. -/
abbrev Out : Shape := ⟨3, ![16, 2048, 512]⟩

/-- The expanded squared distance between feature vector `(b, s)` and centre `k`. -/
def sqdistAt (x : Feat.Idx → EReal) (c : Cent.Idx → EReal) (b : Fin 16) (s : Fin 2048) (k : Fin 512) : EReal :=
  ((∑ d : Fin 256, x (ix3 b s d) * x (ix3 b s d)) + ∑ d : Fin 256, c (ix3 (0 : Fin 1) k d) * c (ix3 (0 : Fin 1) k d))
    - Ideal.ofBits .f32 0x40000000#32 * ∑ d : Fin 256, x (ix3 b s d) * c (ix3 (0 : Fin 1) k d)

/-- The whole result array. -/
def sqdist (x : Feat.Idx → EReal) (c : Cent.Idx → EReal) : Out.Idx → EReal :=
  fun i => sqdistAt x c (i 0) (i 1) (i 2)

theorem sqdist_ix3 (x : Feat.Idx → EReal) (c : Cent.Idx → EReal) (b : Fin 16) (s : Fin 2048) (k : Fin 512) :
    sqdist x c (ix3 b s k) = sqdistAt x c b s k := rfl

end Cert.Dist

end
-- ==== Proof.KernelValue.lean ====
/-
  The kernel program computes the expanded squared distance.

  Before the grid runs, the host lays the features out as 32768 rows of 256 coordinates (row
  `r = b·2048 + s` is feature vector `(b, s)`), drops the centres' leading unit axis, and computes
  the row of the centres' squared norms.  Grid step `t` takes rows `t·2048 … t·2048 + 2047`, all
  centres and all norms, and writes rows `t·2048 … t·2048 + 2047` of a [32768, 512] array; the
  sixteen steps tile that array.  After the grid the host folds the rows back to [16, 2048, 512].
-/
import proofs.«112747_j84095459656141_1_alg».proof.Proof.Gen.KernelIdeal.Frame
import proofs.«112747_j84095459656141_1_alg».proof.Proof.BlockValue
import proofs.«112747_j84095459656141_1_alg».proof.Proof.Spec
import Idealize.ShloMosaic.Lib.StableHlo.Run

set_option maxRecDepth 16384

noncomputable section

namespace Cert.KernelIdeal.Dist

open Cert.KernelIdeal Cert.KernelIdeal.Gen Cert.Dist
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

/-- The features as launched. -/
abbrev feats (c : Dev nD) : FVec Ideal S16x2048x256 .f32 := m ((c : Thread nD τ).loc main_arg0)
/-- The centres as launched. -/
abbrev cents (c : Dev nD) : FVec Ideal S1x512x256 .f32 := m ((c : Thread nD τ).loc main_arg1)

/-! ## What the grid finds in its three input arrays -/

/-- The rows: the features re-laid as [32768, 256]. -/
theorem entry_rows (c : Dev nD) :
    (V m c main_v5 : S32768x256.Idx → EReal) = shapeCast S32768x256 (feats m c) shapeCasts_S16x2048x256_S32768x256 := by
  show StableHlo.after hostOps0 (fun b => m (c, b)) (Proc.devRef .tc main_v5) = _
  after_results
  rfl

/-- The centres with the unit axis dropped. -/
theorem entry_cents (c : Dev nD) :
    (V m c main_v0 : S512x256.Idx → EReal) = shapeCast S512x256 (cents m c) shapeCasts_S1x512x256_S512x256 := by
  show StableHlo.after hostOps0 (fun b => m (c, b)) (Proc.devRef .tc main_v0) = _
  after_results
  rfl

/-- The centres' squared norms, as a row. -/
theorem entry_norms (c : Dev nD) :
    (V m c main_v4 : S1x512.Idx → EReal) = shapeCast S1x512 (broadcastInDim S512x1 ![0] bcast_S512_S512x1_0
      (Host.reduceAdd (F := Ideal) (mulf (shapeCast S512x256 (cents m c) shapeCasts_S1x512x256_S512x256) (shapeCast S512x256 (cents m c) shapeCasts_S1x512x256_S512x256))
        (constant (F := Ideal) S_ .f32 0x00000000#32) reducesTo_S512x256_S512_d1 h_S_)) shapeCasts_S512x1_S1x512 := by
  show StableHlo.after hostOps0 (fun b => m (c, b)) (Proc.devRef .tc main_v4) = _
  after_results
  rfl

/-- Row `r`, coordinate `d`, is feature vector `(r / 2048, r % 2048)` at `d`. -/
theorem entry_rows_apply (c : Dev nD) (r : Fin 32768) (d : Fin 256) (b : Fin 16) (s : Fin 2048) (hr : r.val = b.val * 2048 + s.val) :
    (V m c main_v5 : S32768x256.Idx → EReal) (ix2 r d) = feats m c (ix3 b s d) := by
  rw [entry_rows]
  exact shapeCast_apply (feats m c) shapeCasts_S16x2048x256_S32768x256 (ix2 r d) (ix3 b s d) (by
    rewrite [Shape.rowMajor_val_three, Shape.rowMajor_val_two]
    show (b.val * 2048 + s.val) * 256 + d.val = r.val * 256 + d.val
    rw [hr])

/-- Centre `k`, coordinate `d`. -/
theorem entry_cents_apply (c : Dev nD) (k : Fin 512) (d : Fin 256) :
    (V m c main_v0 : S512x256.Idx → EReal) (ix2 k d) = cents m c (ix3 (0 : Fin 1) k d) := by
  rw [entry_cents]
  exact shapeCast_apply (cents m c) shapeCasts_S1x512x256_S512x256 (ix2 k d) (ix3 (0 : Fin 1) k d) (by
    rewrite [Shape.rowMajor_val_three, Shape.rowMajor_val_two]
    show (0 * 512 + k.val) * 256 + d.val = k.val * 256 + d.val
    omega)

/-- The squared norm of centre `k`: the host's sum from the zero word over the centre's coordinates. -/
theorem entry_norms_apply (c : Dev nD) (k : Fin 512) :
    (V m c main_v4 : S1x512.Idx → EReal) (ix2 (0 : Fin 1) k)
      = ∑ d : Fin 256, cents m c (ix3 (0 : Fin 1) k d) * cents m c (ix3 (0 : Fin 1) k d) := by
  rw [entry_norms]
  refine (shapeCast_apply _ shapeCasts_S512x1_S1x512 (ix2 (0 : Fin 1) k) (ix2 k (0 : Fin 1)) (by
    rewrite [Shape.rowMajor_val_two, Shape.rowMajor_val_two]
    show k.val * 1 + 0 = 0 * 512 + k.val
    omega)).trans ?_
  refine (broadcastInDim_apply _ bcast_S512_S512x1_0 _ (ix2 k (0 : Fin 1)) (ix1 k) (fun ax => by
    match ax with
    | ⟨0, _⟩ => show k.val = if (512 : Nat) = 1 then 0 else k.val; rw [if_neg (by decide)])).trans ?_
  simp only [Host.reduceAdd, Ideal.hostReduceAdd_def]
  rw [Ideal.hostReduceAdd_single reducesTo_S512x256_S512_d1 (by decide)]
  show Ideal.ofBits .f32 0x00000000#32 + _ = _
  rw [Ideal.ofBits_zero_f32, zero_add]
  refine Finset.sum_congr rfl fun d _ => ?_
  have e : (show S512x256.Reduces [1] S512 by decide).lift (ix1 k) d = ix2 k d := by
    funext ax; apply Fin.ext
    match ax with
    | ⟨0, _⟩ => rfl
    | ⟨1, _⟩ => rfl
  rw [e]
  have hc := entry_cents_apply m c k d
  rw [entry_cents] at hc
  exact congrArg₂ (· * ·) hc hc

/-! ## The blocks a grid step loads -/

/-- The tile of feature rows step `t` loads. -/
abbrev rowBlk (c : Dev nD) (t : Fin cfg0.N) : Vec Ideal S2048x256 .f32 := iblk m c 0 t
/-- The centres step `t` loads. -/
abbrev centBlk (c : Dev nD) (t : Fin cfg0.N) : Vec Ideal S512x256 .f32 := iblk m c 1 t
/-- The centres' squared norms step `t` loads. -/
abbrev normBlk (c : Dev nD) (t : Fin cfg0.N) : Vec Ideal S1x512 .f32 := iblk m c 2 t

theorem hz : (![0, 0] : Fin 2 → Nat) = fun _ => 0 := funext fun a => by fin_cases a <;> rfl

/-- The printed block indices, decided over the sixteen steps: the row tile and the output tile are
    tile `t`; the centres and the norms are taken whole at every step. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of step `t`'s tile is row `t·2048 + p`. -/
theorem rowBlk_apply (c : Dev nD) (t : Fin cfg0.N) (p : Fin 2048) (d : Fin 256) (r : Fin 32768) (hr : r.val = t.val * 2048 + p.val) :
    rowBlk m c t (ix2 p d) = (V m c main_v5 : S32768x256.Idx → EReal) (ix2 r d) := by
  obtain ⟨e0, e1, -⟩ := idx_facts t
  show V m c main_v5 (((cfg0.win 0).blk t).view.emb (ix2 p d)) = V m c main_v5 (ix2 r d)
  refine congrArg (V m c main_v5) ?_
  funext ax; apply Fin.ext
  match ax with
  | ⟨0, _⟩ => show win0_0.index t (0 : Fin 2) * 2048 + 1 * p.val = r.val; omega
  | ⟨1, _⟩ => show win0_0.index t (1 : Fin 2) * 256 + 1 * d.val = d.val; omega

/-- Every step sees all the centres. -/
theorem centBlk_apply (c : Dev nD) (t : Fin cfg0.N) (k : Fin 512) (d : Fin 256) :
    centBlk m c t (ix2 k d) = (V m c main_v0 : S512x256.Idx → EReal) (ix2 k d) := by
  obtain ⟨-, -, e2, e3, -⟩ := idx_facts t
  show V m c main_v0 (((cfg0.win 1).blk t).view.emb (ix2 k d)) = V m c main_v0 (ix2 k d)
  refine congrArg (V m c main_v0) ?_
  funext ax; apply Fin.ext
  match ax with
  | ⟨0, _⟩ => show win0_1.index t (0 : Fin 2) * 512 + 1 * k.val = k.val; omega
  | ⟨1, _⟩ => show win0_1.index t (1 : Fin 2) * 256 + 1 * d.val = d.val; omega

/-- Every step sees all the norms. -/
theorem normBlk_apply (c : Dev nD) (t : Fin cfg0.N) (k : Fin 512) :
    normBlk m c t (ix2 (0 : Fin 1) k) = (V m c main_v4 : S1x512.Idx → EReal) (ix2 (0 : Fin 1) k) := by
  obtain ⟨-, -, -, -, e4, e5, -⟩ := idx_facts t
  show V m c main_v4 (((cfg0.win 2).blk t).view.emb (ix2 (0 : Fin 1) k)) = V m c main_v4 (ix2 (0 : Fin 1) k)
  refine congrArg (V m c main_v4) ?_
  funext ax; apply Fin.ext
  match ax with
  | ⟨0, _⟩ => show win0_2.index t (0 : Fin 2) * 1 + 1 * 0 = 0; omega
  | ⟨1, _⟩ => show win0_2.index t (1 : Fin 2) * 512 + 1 * k.val = k.val; omega

/-! ## The array the grid writes -/

/-- The expanded squared distance laid out over rows: row `r` is feature vector `(r / 2048, r % 2048)`. -/
def flat (x : FVec Ideal S16x2048x256 .f32) (cs : FVec Ideal S1x512x256 .f32) : S32768x512.Idx → EReal := fun i =>
  sqdistAt x cs ⟨(i 0).val / 2048, by have h : (i 0).val < 32768 := (i 0).isLt; omega⟩
    ⟨(i 0).val % 2048, Nat.mod_lt _ (by decide)⟩ ⟨(i 1).val, (i 1).isLt⟩

/-- WHAT STEP `t` WRITES BACK is tile `t` of that array. -/
theorem flushed_eq (c : Dev nD) (t : Fin cfg0.N) :
    (dats m 0 c).flushed 3 t = ((cfg0.win 3).blk t).view.read (Elt Ideal) (flat (feats m c) (cents m c)) := by
  show (cfg0.win 3).cut (grid0.coords t) ((dats m 0 c).after 3 t) = _
  rw [after0_3]
  unfold out0_3
  rw [View.canon_unit_zero hz]
  simp only [View.ld_unit_zero (S := S2048x256) hz, View.ld_unit_zero (S := S512x256) hz, View.ld_unit_zero (S := S1x512) hz]
  obtain ⟨-, -, -, -, -, -, e6, e7⟩ := idx_facts t
  have hN : t.val < 16 := lt_of_lt_of_eq t.isLt N_0
  funext j
  obtain ⟨p, q, rfl⟩ : ∃ (p : Fin 2048) (q : Fin 512), j = ix2 p q := ⟨j 0, j 1, eq_ix2 j⟩
  have hp : p.val < 2048 := p.isLt
  have hq : q.val < 512 := q.isLt
  show k0_pay1 (F := Ideal) (rowBlk m c t) (centBlk m c t) (normBlk m c t) (ix2 p q)
    = flat (feats m c) (cents m c) (((cfg0.win 3).blk t).view.emb (ix2 p q))
  have he : ((cfg0.win 3).blk t).view.emb (ix2 p q) = (ix2 (⟨t.val * 2048 + p.val, by omega⟩ : Fin 32768) q : S32768x512.Idx) := by
    funext ax; apply Fin.ext
    match ax with
    | ⟨0, _⟩ => show win0_3.index t (0 : Fin 2) * 2048 + 1 * p.val = t.val * 2048 + p.val; omega
    | ⟨1, _⟩ => show win0_3.index t (1 : Fin 2) * 512 + 1 * q.val = q.val; omega
  rw [he]
  refine (stored_apply (rowBlk m c t) (centBlk m c t) (normBlk m c t) p q).trans ?_
  have hb : (t.val * 2048 + p.val) / 2048 = t.val := by omega
  have hs : (t.val * 2048 + p.val) % 2048 = p.val := by omega
  have hrow : ∀ d : Fin 256, rowBlk m c t (ix2 p d) = feats m c (ix3 (⟨t.val, hN⟩ : Fin 16) p d) := fun d =>
    (rowBlk_apply m c t p d ⟨t.val * 2048 + p.val, by omega⟩ rfl).trans
      (entry_rows_apply m c ⟨t.val * 2048 + p.val, by omega⟩ d ⟨t.val, hN⟩ p rfl)
  have hcent : ∀ d : Fin 256, centBlk m c t (ix2 q d) = cents m c (ix3 (0 : Fin 1) q d) := fun d =>
    (centBlk_apply m c t q d).trans (entry_cents_apply m c q d)
  have hnorm : normBlk m c t (ix2 (0 : Fin 1) q) = ∑ d : Fin 256, cents m c (ix3 (0 : Fin 1) q d) * cents m c (ix3 (0 : Fin 1) q d) :=
    (normBlk_apply m c t q).trans (entry_norms_apply m c q)
  simp only [hrow, hcent, hnorm]
  show _ = sqdistAt (feats m c) (cents m c) ⟨(t.val * 2048 + p.val) / 2048, _⟩ ⟨(t.val * 2048 + p.val) % 2048, _⟩ ⟨q.val, _⟩
  unfold sqdistAt
  simp only [hb, hs]

/-- An index of the array is in step `t`'s tile iff each coordinate is in the tile's range on its axis. -/
theorem mem_blk (t : Fin cfg0.N) (i : S32768x512.Idx) :
    i ∈ ((cfg0.win 3).blk t).view.set ↔ ∀ a : Fin 2, win0_3.index t a * S2048x512.size a ≤ (i a).val ∧ (i a).val < win0_3.index t a * S2048x512.size a + S2048x512.size a := by
  show i ∈ ((View.whole main_v6).slice (win0_3.rect t)).set ↔ _
  rw [View.set_slice_whole, Rect.mem_set_unit]
  exact Iff.rfl

/-- Row `r` lies in tile `r / 2048`: the sixteen tiles cover the array. -/
theorem cover (i : S32768x512.Idx) : ∃ t : Fin cfg0.N, (cfg0.win 3).flush t = true ∧ i ∈ ((cfg0.win 3).blk t).view.set := by
  have hi0 : (i 0).val < 32768 := (i 0).isLt
  have hi1 : (i 1).val < 512 := (i 1).isLt
  let t : Fin cfg0.N := ⟨(i 0).val / 2048, lt_of_lt_of_eq (by omega : (i 0).val / 2048 < 16) N_0.symm⟩
  obtain ⟨-, -, -, -, -, -, e6, e7⟩ := idx_facts t
  have ht : t.val = (i 0).val / 2048 := rfl
  refine ⟨t, flush0_3 t, ?_⟩
  rw [mem_blk]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 512 ≤ (i 1).val ∧ (i 1).val < win0_3.index t (1 : Fin 2) * 512 + 512; omega

/-- THE ARRAY after the grid: the expanded squared distance, laid out over rows. -/
theorem final (c : Dev nD) : (dats m 0 c).arrAt 3 cfg0.N = flat (feats m c) (cents m c) :=
  (dats m 0 c).arrAt_eq_of_cover 3 (flat (feats m c) (cents m c)) (fun t _ => flushed_eq m c t) cover

/-! ## The result, after the host folds the rows back -/

/-- The program's result buffer after the run. -/
theorem result_eq (c : Dev nD) :
    Pipeline.afterTail₀ cfgs (dats m) 0 (V0 m) [hostOps1] c main_v7 = sqdist (feats m c) (cents m c) := by
  unfold Pipeline.afterTail₀
  show StableHlo.after hostOps1 _ (Proc.devRef .tc main_v7) = _
  after_results
  have hw : Pipeline.withArrays (cfgs 0).spec c (V0 m c) (fun w => (dats m 0 c).arrAt w (cfgs 0).N) (Proc.devRef .tc main_v6)
      = flat (feats m c) (cents m c) :=
    (Pipeline.withArrays_arr spec0 launch0.win.arr_inj c _ _ 3).trans (final m c)
  funext i
  obtain ⟨b, s, k, rfl⟩ : ∃ (b : Fin 16) (s : Fin 2048) (k : Fin 512), i = ix3 b s k := ⟨i 0, i 1, i 2, eq_ix3 i⟩
  have hb : b.val < 16 := b.isLt
  have hs : s.val < 2048 := s.isLt
  show shapeCast S16x2048x512 (Pipeline.withArrays (cfgs 0).spec c (V0 m c) (fun w => (dats m 0 c).arrAt w (cfgs 0).N) (Proc.devRef .tc main_v6))
    shapeCasts_S32768x512_S16x2048x512 (ix3 b s k) = _
  rw [hw]
  refine (shapeCast_apply (flat (feats m c) (cents m c)) shapeCasts_S32768x512_S16x2048x512 (ix3 b s k)
    (ix2 (⟨b.val * 2048 + s.val, by omega⟩ : Fin 32768) k) (by
      rewrite [Shape.rowMajor_val_three, Shape.rowMajor_val_two]
      show (b.val * 2048 + s.val) * 512 + k.val = (b.val * 2048 + s.val) * 512 + k.val
      rfl)).trans ?_
  show sqdistAt (feats m c) (cents m c) ⟨(b.val * 2048 + s.val) / 2048, _⟩ ⟨(b.val * 2048 + s.val) % 2048, _⟩ ⟨k.val, _⟩
    = sqdistAt (feats m c) (cents m c) b s k
  have e1 : (b.val * 2048 + s.val) / 2048 = b.val := by omega
  have e2 : (b.val * 2048 + s.val) % 2048 = s.val := by omega
  simp only [e1, e2]

/-- The kernel program's run, read: it terminates with its result buffer at the expanded squared
    distance of its two arguments, which it leaves unchanged. -/
theorem run : θ_run defs (onTc (τ := τ) (main (F := Ideal))) ⟨m, fun _ => 0, ρ⟩ (fun r => ∀ c : Dev nD,
      r.2.mem ((c.tc : Thread nD τ).loc main_v7) = sqdist (feats m c) (cents m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v7 (Pipeline.mem_restRefs_of main_v7 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Dist

end
-- ==== Proof.RefValue.lean ====
/-
  The reference program computes the expanded squared distance.

  Read one operation at a time, entry `(b, s, k)` of its result is

      ((0 + Σ_d x[b,s,d]·x[b,s,d]) + (0 + Σ_d C[k,d]·C[k,d]))  −  2 · Σ_d x[b,s,d]·C[k,d],

  where `C` is the centres' array with its leading unit axis dropped, so `C[k,d] = c[0,k,d]`,
  the two squared norms are host sums started from the zero word, and the cross term is the
  host's contraction over the last axis of both operands.
-/
import proofs.«112747_j84095459656141_1_alg».proof.Proof.Gen.ReferenceIdeal.Read
import proofs.«112747_j84095459656141_1_alg».proof.Proof.Spec

noncomputable section

namespace Cert.ReferenceIdeal.Dist

open Cert.ReferenceIdeal Cert.ReferenceIdeal.Gen Cert.ReferenceIdeal.Read Cert.Dist
open Idealize.ShloMosaic Idealize.ShloMosaic.ValueIdx
open scoped BigOperators

/-! ## Where each operand is read -/

/-- The squared norm of feature vector `(b, s)` reads the features at `(b, s, d)`. -/
theorem feat_norm_idx (i : S16x2048x512.Idx) (d : Fin 256) :
    idx_main_v2 (idx_main_v3 (idx_main_v8 i)) d = ix3 (i 0) (i 1) d := by
  funext ax; apply Fin.ext
  match ax with
  | ⟨0, _⟩ => rfl
  | ⟨1, _⟩ => rfl
  | ⟨2, _⟩ => rfl

/-- The cross term reads the features at `(b, s, d)` -/
theorem feat_cross_idx (i : S16x2048x512.Idx) (d : Fin 256) :
    lidx_main_v6 i d = ix3 (i 0) (i 1) d := by
  funext ax; apply Fin.ext
  match ax with
  | ⟨0, _⟩ => rfl
  | ⟨1, _⟩ => rfl
  | ⟨2, _⟩ => rfl

/-- … and the centres, through the dropped unit axis, at `(0, k, d)`. -/
theorem cent_cross_idx (i : S16x2048x512.Idx) (d : Fin 256) :
    idx_main_v0 (ridx_main_v6 i d) = ix3 (0 : Fin 1) (i 2) d := by
  funext ax; apply Fin.ext
  have hk : (i 2).val < 512 := (i 2).isLt
  have hd : d.val < 256 := d.isLt
  match ax with
  | ⟨0, _⟩ => rfl
  | ⟨1, _⟩ => show ((i 2).val * 256 + d.val) / 256 % 512 = (i 2).val; omega
  | ⟨2, _⟩ => show ((i 2).val * 256 + d.val) % 256 = d.val; omega

/-- The squared norm of centre `k` reads the centres at `(0, k, d)`. -/
theorem cent_norm_idx (i : S16x2048x512.Idx) (d : Fin 256) :
    idx_main_v0 (idx_main_v5 (idx_main_v7 (idx_main_v9 i)) d) = ix3 (0 : Fin 1) (i 2) d := by
  funext ax; apply Fin.ext
  have hk : (i 2).val < 512 := (i 2).isLt
  have hd : d.val < 256 := d.isLt
  match ax with
  | ⟨0, _⟩ => rfl
  | ⟨1, _⟩ => show ((i 2).val * 256 + d.val) / 256 % 512 = (i 2).val; omega
  | ⟨2, _⟩ => show ((i 2).val * 256 + d.val) % 256 = d.val; omega

/-! ## The result -/

/-- The reference's result is the expanded squared distance of its two arguments. -/
theorem result_eq (x : FVec Ideal S16x2048x256 .f32) (c : FVec Ideal S1x512x256 .f32) :
    val_main_v13 (F := Ideal) x c = sqdist x c := by
  funext i
  rw [val_main_v13_apply, val_main_v10_apply, val_main_v12_apply, val_main_v8_apply, val_main_v3_apply,
    val_main_v2_apply, val_main_v9_apply, val_main_v7_apply, val_main_v5_apply, val_main_v11_apply,
    val_main_v6_apply]
  simp only [val_main_v1_apply, val_main_v4_apply, val_main_v0_apply, val_main_cst_apply, val_main_cst_0_apply,
    val_main_cst_1_apply, feat_norm_idx, feat_cross_idx, cent_cross_idx, cent_norm_idx,
    Ideal.subf_def, Ideal.addf_def, Ideal.mulf_def, Ideal.ofBits_def, Ideal.ofBits_zero_f32, zero_add]
  rfl

end Cert.ReferenceIdeal.Dist

end
-- ==== Proof.lean ====
/-
  The certificate's claims.

  Both programs compute, for feature vectors `x[b,s,·]` and centres `c[0,k,·]` of 256 coordinates,

      D[b, s, k] = (Σ_d x[b,s,d]² + Σ_d c[0,k,d]²) − 2 · Σ_d x[b,s,d]·c[0,k,d]

  over the extended reals, with the three sums grouped in exactly this way.  The kernel program
  computes the centres' norms on the host, then tiles the 32768 feature rows into sixteen grid
  steps, each a matrix product of a bf16-narrowed row tile with the bf16-narrowed centres (narrowing
  is the identity over the extended reals) combined with the row's and the centres' squared norms.
  The reference computes the same three sums with host reductions and one host contraction.  The
  two results agree term by term; only `0 + a = a` is used, so the inputs' finiteness is not needed.
-/
import proofs.«112747_j84095459656141_1_alg».proof.Defs
import proofs.«112747_j84095459656141_1_alg».proof.Proof.Gen.Kernel
import proofs.«112747_j84095459656141_1_alg».proof.Proof.Gen.Kernel.Skeleton
import proofs.«112747_j84095459656141_1_alg».proof.Proof.Gen.Kernel.Launch
import proofs.«112747_j84095459656141_1_alg».proof.Proof.Gen.Kernel.Points
import proofs.«112747_j84095459656141_1_alg».proof.Proof.Gen.Kernel.Frame
import proofs.«112747_j84095459656141_1_alg».proof.Proof.Gen.KernelIdeal
import proofs.«112747_j84095459656141_1_alg».proof.Proof.Gen.KernelIdeal.Skeleton
import proofs.«112747_j84095459656141_1_alg».proof.Proof.Gen.KernelIdeal.Launch
import proofs.«112747_j84095459656141_1_alg».proof.Proof.Gen.KernelIdeal.Points
import proofs.«112747_j84095459656141_1_alg».proof.Proof.Gen.KernelIdeal.Frame
import proofs.«112747_j84095459656141_1_alg».proof.Proof.Gen.ReferenceIdeal
import proofs.«112747_j84095459656141_1_alg».proof.Proof.Gen.Pre_finite_inputs
import proofs.«112747_j84095459656141_1_alg».proof.Proof.Gen.ReferenceIdeal.Run
import proofs.«112747_j84095459656141_1_alg».proof.Proof.Gen.ReferenceIdeal.Read
import proofs.«112747_j84095459656141_1_alg».proof.Proof.KernelValue
import proofs.«112747_j84095459656141_1_alg».proof.Proof.RefValue
import Idealize.ShloMosaic.Adequacy
import Idealize.ShloMosaic.Init

noncomputable section

namespace Cert.Proof

open Idealize.ShloMosaic Idealize.SL.Sem

/-- The word-level kernel program terminates, faults nowhere and leaves its arguments as they were. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the features and the centres, both programs end with the expanded
    squared distance of those two arrays in their result buffers. -/
theorem algebraic : Cert.algebraic_KernelIdeal_ReferenceIdeal := by
  intro m ρ m' ρ' _ hagree
  refine ⟨fun c => Cert.Dist.sqdist (Cert.KernelIdeal.Dist.feats m c) (Cert.KernelIdeal.Dist.cents m c),
    Cert.KernelIdeal.Dist.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.Dist.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
